-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x150000 : Shape := ⟨2, ![2, 150000]⟩
abbrev S512 : Shape := ⟨1, ![512]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg5 : FVec F S512 .f32) (main_arg6 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S10000x512 .f32) (main_arg1 : IVec S2x150000 32) (main_arg2 : FVec F S512 .f32) (main_arg3 : FVec F S512 .f32) (main_arg4 : FVec F S512x512 .f32) (main_arg5 : FVec F S512 .f32) (main_arg6 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_v13 main_v16
-- ==== Kernel.lean ====
abbrev S10000x512 : Shape := ⟨2, ![10000, 512]⟩
abbrev S2x150000 : Shape := ⟨2, ![2, 150000]⟩
abbrev S512 : Shape := ⟨1, ![512]⟩
abbrev S512x512 : Shape := ⟨2, ![512, 512]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S10000 : Shape := ⟨1, ![10000]⟩
abbrev S10000x1 : Shape := ⟨2, ![10000, 1]⟩

abbrev nBuf : Space → Nat
  | .hbm => 43
  | .vmem => 17
  | .smem => 0
  | _ => 0

abbrev bufTy : (tb : Table) → Fin (tcTables nBuf tb) → BufTy
  | .hbm, ⟨0, _⟩ => ⟨S10000x512, .f32⟩
  | .hbm, ⟨1, _⟩ => ⟨S2x150000, .i32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S10000x512, .f32⟩
  | .hbm, ⟨10, _⟩ => ⟨S1x150000, .i32⟩
  | .hbm, ⟨11, _⟩ => ⟨S150000, .i32⟩
  | .hbm, ⟨12, _⟩ => ⟨S1x150000, .i32⟩
  | .hbm, ⟨13, _⟩ => ⟨S150000, .i32⟩
  | .hbm, ⟨14, _⟩ => ⟨S_, .i32⟩
  | .hbm, ⟨15, _⟩ => ⟨S150000, .i32⟩
  | .hbm, ⟨16, _⟩ => ⟨S150000, .i1⟩
  | .hbm, ⟨17, _⟩ => ⟨S_, .i32⟩
  | .hbm, ⟨18, _⟩ => ⟨S150000, .i32⟩
  | .hbm, ⟨19, _⟩ => ⟨S150000, .i32⟩
  | .hbm, ⟨20, _⟩ => ⟨S150000, .i32⟩
  | .hbm, ⟨21, _⟩ => ⟨S150000x1, .i32⟩
  | .hbm, ⟨22, _⟩ => ⟨S150000x512, .f32⟩
  | .hbm, ⟨23, _⟩ => ⟨S_, .f32⟩
  | .hbm, ⟨24, _⟩ => ⟨S10000x512, .f32⟩
  | .hbm, ⟨25, _⟩ => ⟨S150000x1, .i32⟩
  | .hbm, ⟨26, _⟩ => ⟨S10000x512, .f32⟩
  | .hbm, ⟨27, _⟩ => ⟨S_, .f32⟩
  | .hbm, ⟨28, _⟩ => ⟨S150000, .f32⟩
  | .hbm, ⟨29, _⟩ => ⟨S_, .f32⟩
  | .hbm, ⟨30, _⟩ => ⟨S10000, .f32⟩
  | .hbm, ⟨31, _⟩ => ⟨S150000x1, .i32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x512, .f32⟩
  | .hbm, ⟨38, _⟩ => ⟨S10000x512, .f32⟩
  | .hbm, ⟨39, _⟩ => ⟨S512x512, .f32⟩
  | .hbm, ⟨40, _⟩ => ⟨S512x512, .f32⟩
  | .hbm, ⟨41, _⟩ => ⟨S1x512, .f32⟩
  | .hbm, ⟨42, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S1x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S1000x512, .f32⟩
  | .local _ .vmem, ⟨16, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S512x512_S512x512_1_0 : S512x512.Transposes [1, 0] S512x512
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S10000x512_S150000x1_S150000x512_1_0_n_n_0_1_1512_wf : GatherDims.WF S10000x512 S150000x1 S150000x512 [1] [0] [] [0] [] 1 ![1, 512]
  scatter_S10000x512_S150000x1_S150000x512_1_0_0_1_wf : ScatterDims.WF S10000x512 S150000x1 S150000x512 [1] [0] [0] 1
  scatter_S10000_S150000x1_S150000_n_0_0_1_wf : ScatterDims.WF S10000 S150000x1 S150000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S10000x512.size a
  hwx1_2 : ∀ i : grid1.Coords, EltTy.bits .f32 = 32 ∨ (Rect.block (s := S10000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x512.size a ≤ S10000x512.size a
  hwx1_6 : ∀ i : grid1.Coords, EltTy.bits .f32 = 32 ∨ (Rect.block (s := S10000x512) S1000x512.size (cc1_transform_6 i) (hinb1_6 i)).WholeWords (EltTy.packing .f32)

variable [Facts₀]

def gather_S10000x512_S150000x1_S150000x512_1_0_n_n_0_1_1512 : GatherDims S10000x512 S150000x1 S150000x512 where
  offsetDims := [1]
  collapsedSliceDims := [0]
  operandBatchingDims := []
  startIndicesBatchingDims := []
  startIndexMap := [0]
  indexVectorDim := 1
  sliceSizes := ![1, 512]
  wf := gather_S10000x512_S150000x1_S150000x512_1_0_n_n_0_1_1512_wf
def scatter_S10000x512_S150000x1_S150000x512_1_0_0_1 : ScatterDims S10000x512 S150000x1 S150000x512 where
  updateWindowDims := [1]
  insertedWindowDims := [0]
  scatterDimsToOperandDims := [0]
  indexVectorDim := 1
  wf := scatter_S10000x512_S150000x1_S150000x512_1_0_0_1_wf
def scatter_S10000_S150000x1_S150000_n_0_0_1 : ScatterDims S10000 S150000x1 S150000 where
  updateWindowDims := []
  insertedWindowDims := [0]
  scatterDimsToOperandDims := [0]
  indexVectorDim := 1
  wf := scatter_S10000_S150000x1_S150000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1000x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x150000 : Shape := ⟨2, ![2, 150000]⟩
abbrev S512 : Shape := ⟨1, ![512]⟩
abbrev S512x512 : Shape := ⟨2, ![512, 512]⟩
abbrev S_ : Shape := ⟨0, ![]⟩
abbrev S10000 : Shape := ⟨1, ![10000]⟩
abbrev S10000x1 : Shape := ⟨2, ![10000, 1]⟩
abbrev S1x512 : Shape := ⟨2, ![1, 512]⟩
abbrev S1x150000 : Shape := ⟨2, ![1, 150000]⟩
abbrev S150000 : Shape := ⟨1, ![150000]⟩
abbrev S150000x1 : Shape := ⟨2, ![150000, 1]⟩
abbrev S150000x512 : Shape := ⟨2, ![150000, 512]⟩

abbrev nBuf : Space → Nat
  | .hbm => 77
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x150000, .i32⟩
  | .hbm, ⟨2, _⟩ => ⟨S512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S_, .f32⟩
  | .hbm, ⟨8, _⟩ => ⟨S10000, .f32⟩
  | .hbm, ⟨9, _⟩ => ⟨S10000x1, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x512, .f32⟩
  | .hbm, ⟨14, _⟩ => ⟨S10000x512, .f32⟩
  | .hbm, ⟨15, _⟩ => ⟨S10000x512, .f32⟩
  | .hbm, ⟨16, _⟩ => ⟨S_, .f32⟩
  | .hbm, ⟨17, _⟩ => ⟨S10000, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x512, .f32⟩
  | .hbm, ⟨23, _⟩ => ⟨S10000x512, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x1, .f32⟩
  | .hbm, ⟨28, _⟩ => ⟨S10000x512, .f32⟩
  | .hbm, ⟨29, _⟩ => ⟨S10000x512, .f32⟩
  | .hbm, ⟨30, _⟩ => ⟨S1x512, .f32⟩
  | .hbm, ⟨31, _⟩ => ⟨S10000x512, .f32⟩
  | .hbm, ⟨32, _⟩ => ⟨S10000x512, .f32⟩
  | .hbm, ⟨33, _⟩ => ⟨S1x512, .f32⟩
  | .hbm, ⟨34, _⟩ => ⟨S10000x512, .f32⟩
  | .hbm, ⟨35, _⟩ => ⟨S10000x512, .f32⟩
  | .hbm, ⟨36, _⟩ => ⟨S1x150000, .i32⟩
  | .hbm, ⟨37, _⟩ => ⟨S150000, .i32⟩
  | .hbm, ⟨38, _⟩ => ⟨S1x150000, .i32⟩
  | .hbm, ⟨39, _⟩ => ⟨S150000, .i32⟩
  | .hbm, ⟨40, _⟩ => ⟨S_, .i32⟩
  | .hbm, ⟨41, _⟩ => ⟨S150000, .i32⟩
  | .hbm, ⟨42, _⟩ => ⟨S150000, .i1⟩
  | .hbm, ⟨43, _⟩ => ⟨S_, .i32⟩
  | .hbm, ⟨44, _⟩ => ⟨S150000, .i32⟩
  | .hbm, ⟨45, _⟩ => ⟨S150000, .i32⟩
  | .hbm, ⟨46, _⟩ => ⟨S150000, .i32⟩
  | .hbm, ⟨47, _⟩ => ⟨S150000x1, .i32⟩
  | .hbm, ⟨48, _⟩ => ⟨S150000x512, .f32⟩
  | .hbm, ⟨49, _⟩ => ⟨S_, .f32⟩
  | .hbm, ⟨50, _⟩ => ⟨S10000x512, .f32⟩
  | .hbm, ⟨51, _⟩ => ⟨S150000x1, .i32⟩
  | .hbm, ⟨52, _⟩ => ⟨S10000x512, .f32⟩
  | .hbm, ⟨53, _⟩ => ⟨S_, .f32⟩
  | .hbm, ⟨54, _⟩ => ⟨S150000, .f32⟩
  | .hbm, ⟨55, _⟩ => ⟨S_, .f32⟩
  | .hbm, ⟨56, _⟩ => ⟨S10000, .f32⟩
  | .hbm, ⟨57, _⟩ => ⟨S150000x1, .i32⟩
  | .hbm, ⟨58, _⟩ => ⟨S10000, .f32⟩
  | .hbm, ⟨59, _⟩ => ⟨S_, .f32⟩
  | .hbm, ⟨60, _⟩ => ⟨S10000, .f32⟩
  | .hbm, ⟨61, _⟩ => ⟨S10000, .f32⟩
  | .hbm, ⟨62, _⟩ => ⟨S10000x1, .f32⟩
  | .hbm, ⟨63, _⟩ => ⟨S10000x512, .f32⟩
  | .hbm, ⟨64, _⟩ => ⟨S10000x512, .f32⟩
  | .hbm, ⟨65, _⟩ => ⟨S512x512, .f32⟩
  | .hbm, ⟨66, _⟩ => ⟨S10000x512, .f32⟩
  | .hbm, ⟨67, _⟩ => ⟨S1x512, .f32⟩
  | .hbm, ⟨68, _⟩ => ⟨S10000x512, .f32⟩
  | .hbm, ⟨69, _⟩ => ⟨S10000x512, .f32⟩
  | .hbm, ⟨70, _⟩ => ⟨S512x512, .f32⟩
  | .hbm, ⟨71, _⟩ => ⟨S10000x512, .f32⟩
  | .hbm, ⟨72, _⟩ => ⟨S10000x512, .f32⟩
  | .hbm, ⟨73, _⟩ => ⟨S_, .f32⟩
  | .hbm, ⟨74, _⟩ => ⟨S10000x512, .f32⟩
  | .hbm, ⟨75, _⟩ => ⟨S10000x512, .f32⟩
  | .hbm, ⟨76, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_cst : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S10000x512 : S_.BroadcastsInDim S10000x512 (![] : Fin 0 → Fin S10000x512.rank)
  bcast_S_S10000 : S_.BroadcastsInDim S10000 (![] : Fin 0 → Fin S10000.rank)
  transposes_S512x512_S512x512_1_0 : S512x512.Transposes [1, 0] S512x512
  gather_S10000x512_S150000x1_S150000x512_1_0_n_n_0_1_1512_wf : GatherDims.WF S10000x512 S150000x1 S150000x512 [1] [0] [] [0] [] 1 ![1, 512]
  scatter_S10000x512_S150000x1_S150000x512_1_0_0_1_wf : ScatterDims.WF S10000x512 S150000x1 S150000x512 [1] [0] [0] 1
  scatter_S10000_S150000x1_S150000_n_0_0_1_wf : ScatterDims.WF S10000 S150000x1 S150000 [] [0] [0] 1
  dot_S10000x512_S512x512_S10000x512_1_0_0_1_n_n_wf : DotDims.WF S10000x512 S512x512 S10000x512 [1] [0] [0] [1] [] []

variable [Facts₀]

def gather_S10000x512_S150000x1_S150000x512_1_0_n_n_0_1_1512 : GatherDims S10000x512 S150000x1 S150000x512 where
  offsetDims := [1]
  collapsedSliceDims := [0]
  operandBatchingDims := []
  startIndicesBatchingDims := []
  startIndexMap := [0]
  indexVectorDim := 1
  sliceSizes := ![1, 512]
  wf := gather_S10000x512_S150000x1_S150000x512_1_0_n_n_0_1_1512_wf
def scatter_S10000x512_S150000x1_S150000x512_1_0_0_1 : ScatterDims S10000x512 S150000x1 S150000x512 where
  updateWindowDims := [1]
  insertedWindowDims := [0]
  scatterDimsToOperandDims := [0]
  indexVectorDim := 1
  wf := scatter_S10000x512_S150000x1_S150000x512_1_0_0_1_wf
def scatter_S10000_S150000x1_S150000_n_0_0_1 : ScatterDims S10000 S150000x1 S150000 where
  updateWindowDims := []
  insertedWindowDims := [0]
  scatterDimsToOperandDims := [0]
  indexVectorDim := 1
  wf := scatter_S10000_S150000x1_S150000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.Spec.lean ====
/-
  The mathematics both programs compute, stated once over the extended reals.

  A node's feature row x (512 entries) is normalized: with mean μ = (Σ_k x_k) / 512 and variance
  σ² = (Σ_k (x_k − μ)²) / 512, entry q becomes ((x_q − μ) · (σ² + ε)^(-1/2)) · γ_q + β_q, where ε is the
  single-precision literal nearest 10⁻⁵ (the same word in both programs, never evaluated here).
  The output row of a node is, entry q,  max((Σ_k a_k · L_{k,q} + Σ_k x_k · R_{k,q}) + b_q, 0) + r_q,
  where a is the node's aggregated neighbour row, x its normalized row, L and R the two transposed weight
  matrices, b the bias and r the node's input row (the residual).
  The two programs differ only in the order in which the bias and the second product are added; addition of
  extended reals is commutative and associative, so the two orders agree at every extended real, the
  infinities included.
-/
import Idealize.ShloMosaic.PureOps.Ideal
import Idealize.ShloMosaic.PureOps.Ideal.Laws
import Idealize.ShloMosaic.Lib.ValueIdx

noncomputable section

namespace Cert.SageSpec

open Idealize.ShloMosaic Idealize.ShloMosaic.ValueIdx

/-- A matrix of extended reals, by its index. -/
abbrev Mat (r c : ℕ) := (⟨2, ![r, c]⟩ : Shape).Idx → EReal

/-- The extended real 512, as both programs spell it. -/
abbrev width : EReal := Ideal.ofBits .f32 0x44000000#32
/-- The variance offset ε, as both programs spell it. -/
abbrev eps : EReal := Ideal.ofBits .f32 0x3727C5AC#32
/-- The floor of the rectifier, as both programs spell it. -/
abbrev floor0 : EReal := Ideal.ofBits .f32 0x00000000#32

/-- The mean of a row. -/
def rowMean (row : Fin 512 → EReal) : EReal := Ideal.div (∑ k : Fin 512, row k) width

/-- The variance of a row about its mean. -/
def rowVar (row : Fin 512 → EReal) : EReal :=
  Ideal.div (∑ k : Fin 512, (row k - rowMean row) * (row k - rowMean row)) width

/-- Entry q of the normalized row, scaled by g and shifted by b. -/
def lnEntry (row : Fin 512 → EReal) (g b : EReal) (q : Fin 512) : EReal :=
  (row q - rowMean row) * Ideal.rsqrt (rowVar row + eps) * g + b

/-- The normalized matrix: every row normalized, column q scaled by γ q and shifted by β q. -/
def lnArr {R : ℕ} (a : Mat R 512) (γ β : Fin 512 → EReal) : Mat R 512 := fun i =>
  lnEntry (fun k => a (ix2 (n0 := R) (n1 := 512) (i 0) k)) (γ (i 1)) (β (i 1)) (i 1)

/-- One output entry from the aggregated row, the normalized row, a column of each transposed weight matrix, the bias
    entry and the residual entry: the second product added before the bias. -/
def denseEntry (arow xrow lcol rcol : Fin 512 → EReal) (b r : EReal) : EReal :=
  max ((∑ k : Fin 512, arow k * lcol k + ∑ k : Fin 512, xrow k * rcol k) + b) floor0 + r

/-- The same entry with the bias added before the second product. -/
def denseEntry' (arow xrow lcol rcol : Fin 512 → EReal) (b r : EReal) : EReal :=
  max ((∑ k : Fin 512, arow k * lcol k + b) + ∑ k : Fin 512, xrow k * rcol k) floor0 + r

/-- The two orders of the three-term sum agree on the extended reals. -/
theorem denseEntry'_eq (arow xrow lcol rcol : Fin 512 → EReal) (b r : EReal) :
    denseEntry' arow xrow lcol rcol b r = denseEntry arow xrow lcol rcol b r := by
  unfold denseEntry' denseEntry
  rw [add_right_comm]

/-- The output matrix: row by row and column by column the dense entry. -/
def denseArr {R : ℕ} (agg x res : Mat R 512) (lT rT : Mat 512 512) (b : Fin 512 → EReal) : Mat R 512 := fun i =>
  denseEntry (fun k => agg (ix2 (n0 := R) (n1 := 512) (i 0) k)) (fun k => x (ix2 (n0 := R) (n1 := 512) (i 0) k))
    (fun k => lT (ix2 (n0 := 512) (n1 := 512) k (i 1))) (fun k => rT (ix2 (n0 := 512) (n1 := 512) k (i 1))) (b (i 1)) (res i)

/-- Read at explicit coordinates. -/
theorem lnArr_ix2 {R : ℕ} (a : Mat R 512) (γ β : Fin 512 → EReal) (p : Fin R) (q : Fin 512) :
    lnArr a γ β (ix2 p q) = lnEntry (fun k => a (ix2 p k)) (γ q) (β q) q := rfl

theorem denseArr_ix2 {R : ℕ} (agg x res : Mat R 512) (lT rT : Mat 512 512) (b : Fin 512 → EReal) (p : Fin R) (q : Fin 512) :
    denseArr agg x res lT rT b (ix2 p q)
      = denseEntry (fun k => agg (ix2 p k)) (fun k => x (ix2 p k)) (fun k => lT (ix2 k q)) (fun k => rT (ix2 k q)) (b q) (res (ix2 p q)) := rfl

end Cert.SageSpec

end
-- ==== Proof.HostMean.lean ====
/-
  The neighbour mean both programs take between the two dense stages, as ONE function of the node matrix x and the
  edge list e (row 0 the source node numbers, row 1 the destination node numbers): a negative source number is
  counted from the end, the source rows are gathered, summed into their destination rows, and each destination's
  sum is divided by the number of edges that arrive there, at least one. It is carried whole: neither program's
  proof opens it, since both apply it to the same normalized matrix.
-/
import proofs.«173820_j56375740727935_1_alg».proof.Proof.Gen.KernelIdeal

noncomputable section

namespace Cert.KernelIdeal.HostMean

open Idealize.ShloMosaic Cert.KernelIdeal Cert.KernelIdeal.Facts₀

variable {F : FTy → Type} [FloatOps F]

/-- Row 0 of the edge list: the source node numbers. -/
def sources (e : (⟨S2x150000, .i32⟩ : BufTy).Contents (Elt F)) : (⟨S150000, .i32⟩ : BufTy).Contents (Elt F) :=
  shapeCast S150000 (extractStridedSlice S1x150000 ![0, 0] e slices_S2x150000_S1x150000_0_0) shapeCasts_S1x150000_S150000

/-- Row 1 of the edge list: the destination node numbers. -/
def destinations (e : (⟨S2x150000, .i32⟩ : BufTy).Contents (Elt F)) : (⟨S150000, .i32⟩ : BufTy).Contents (Elt F) :=
  shapeCast S150000 (extractStridedSlice S1x150000 ![1, 0] e slices_S2x150000_S1x150000_1_0) shapeCasts_S1x150000_S150000

/-- A negative node number counts from the end: 10000 is added to it. -/
def fromEnd (s : (⟨S150000, .i32⟩ : BufTy).Contents (Elt F)) : (⟨S150000, .i32⟩ : BufTy).Contents (Elt F) :=
  select (cmpi .slt s (broadcastInDim S150000 ![] bcast_S_S150000 (constantI S_ 32 0#32)))
    (addi s (broadcastInDim S150000 ![] bcast_S_S150000 (constantI S_ 32 10000#32))) s

/-- The mean over each node's incoming edges of the source rows of x. -/
def neighbourMean (x : (⟨S10000x512, .f32⟩ : BufTy).Contents (Elt F)) (e : (⟨S2x150000, .i32⟩ : BufTy).Contents (Elt F)) :
    (⟨S10000x512, .f32⟩ : BufTy).Contents (Elt F) :=
  Host.divf
    (Host.scatterAdd scatter_S10000x512_S150000x1_S150000x512_1_0_0_1
      (broadcastInDim S10000x512 ![] bcast_S_S10000x512 (constant S_ .f32 0x00000000#32))
      (broadcastInDim S150000x1 ![0] bcast_S150000_S150000x1_0 (destinations e))
      (Host.gather gather_S10000x512_S150000x1_S150000x512_1_0_n_n_0_1_1512 x
        (broadcastInDim S150000x1 ![0] bcast_S150000_S150000x1_0 (fromEnd (sources e)))))
    (broadcastInDim S10000x512 ![0, 1] bcast_S10000x1_S10000x512_0_1
      (broadcastInDim S10000x1 ![0] bcast_S10000_S10000x1_0
        (maximumf
          (Host.scatterAdd scatter_S10000_S150000x1_S150000_n_0_0_1
            (broadcastInDim S10000 ![] bcast_S_S10000 (constant S_ .f32 0x00000000#32))
            (broadcastInDim S150000x1 ![0] bcast_S150000_S150000x1_0 (destinations e))
            (broadcastInDim S150000 ![] bcast_S_S150000 (constant S_ .f32 0x3F800000#32)))
          (broadcastInDim S10000 ![] bcast_S_S10000 (constant S_ .f32 0x3F800000#32)))))

end Cert.KernelIdeal.HostMean

end
-- ==== Proof.LayerNormBlock.lean ====
/-
  The first region: every block of 1000 whole rows is normalized row by row, so the whole array ends as the
  normalized matrix of the array the region found.
-/
import proofs.«173820_j56375740727935_1_alg».proof.Proof.Gen.KernelIdeal.Frame
import proofs.«173820_j56375740727935_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LayerNormBlock

open Idealize.ShloMosaic Idealize.ShloMosaic.TcCoe Idealize.SL.Sem Idealize.ShloMosaic.ValueIdx
open Cert.KernelIdeal Cert.KernelIdeal.Gen Cert.SageSpec

/-! ## Columns: a vector of row values kept as a one-column matrix, and spread back over the lanes -/

section Columns
variable {α : Type}

/-- A vector of `a` entries cast to a column `[a, 1]` reads, at row `i`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Columns

/-! ## The body's stages, each read at an index -/

/-- The sum of row `p` of a block over its 512 lanes. -/
theorem laneSum_apply (v : FVec Ideal S1000x512 .f32) (hacc : (0x00000000#32 : BitVec 32) = 0x00000000#32) (p : Fin 1000) :
    multiReduction .add [1] S1000 v 0x00000000#32 reduces_S1000x512_S1000 (.inl rfl) hacc (ix1 p)
      = ∑ k : Fin 512, v (ix2 p k) := by
  refine (Ideal.multiReduction_add_single v 0x00000000#32 reduces_S1000x512_S1000 (.inl rfl) hacc (ix1 p)).trans ?_
  refine Finset.sum_congr rfl fun k _ => congrArg v ?_
  funext a
  match a with
  | ⟨0, _⟩ => rfl
  | ⟨1, _⟩ => rfl

/-- The column of row means of a block: each row's lane sum divided by 512. -/
def meanCol (x : Vec Ideal S1000x512 .f32) : FVec Ideal S1000x1 .f32 :=
  divf (shapeCast S1000x1 (multiReduction .add [1] S1000 x 0x00000000#32 reduces_S1000x512_S1000 (.inl rfl) rfl) shapeCasts_S1000_S1000x1)
    (broadcast S1000x1 (Scalar.ofBits .f32 0x44000000#32))

/-- The block with each row's mean taken off every entry of the row. -/
def centered (x : Vec Ideal S1000x512 .f32) : FVec Ideal S1000x512 .f32 :=
  subf x (broadcastTo S1000x512 (meanCol x) broadcasts_S1000x1_S1000x512)

/-- The column of row variances: each row's sum of squared deviations divided by 512. -/
def varCol (x : Vec Ideal S1000x512 .f32) : FVec Ideal S1000x1 .f32 :=
  divf (shapeCast S1000x1 (multiReduction .add [1] S1000 (mulf (centered x) (centered x)) 0x00000000#32 reduces_S1000x512_S1000 (.inl rfl) rfl) shapeCasts_S1000_S1000x1)
    (broadcast S1000x1 (Scalar.ofBits .f32 0x44000000#32))

/-- The column of row scales: the inverse square root of each row's variance plus ε. -/
def scaleCol (x : Vec Ideal S1000x512 .f32) : FVec Ideal S1000x1 .f32 :=
  rsqrt (addf (varCol x) (broadcast S1000x1 (Scalar.ofBits .f32 0x3727C5AC#32)))

/-- The body's stored value is: centered, scaled row by row, then scaled by γ and shifted by β lane by lane. -/
theorem pay_eq (x : Vec Ideal S1000x512 .f32) (g b : Vec Ideal S1x512 .f32) :
    k0_pay1 (F := Ideal) x g b
      = addf (mulf (mulf (centered x) (broadcastTo S1000x512 (scaleCol x) broadcasts_S1000x1_S1000x512))
            (broadcastTo S1000x512 (shapeCast S1x512 g shapeCasts_S1x512_S1x512) broadcasts_S1x512_S1000x512))
          (broadcastTo S1000x512 (shapeCast S1x512 b shapeCasts_S1x512_S1x512) broadcasts_S1x512_S1000x512) := rfl

theorem meanCol_apply (x : Vec Ideal S1000x512 .f32) (p : Fin 1000) (u : Fin 1) :
    meanCol x (ix2 p u) = rowMean (fun k => x (ix2 p k)) := by
  unfold meanCol rowMean
  exact congrArg (fun s => Ideal.div s width)
    ((shapeCast_a_a1_apply _ shapeCasts_S1000_S1000x1 p u).trans (laneSum_apply x rfl p))

theorem centered_apply (x : Vec Ideal S1000x512 .f32) (p : Fin 1000) (q : Fin 512) :
    centered x (ix2 p q) = x (ix2 p q) - rowMean (fun k => x (ix2 p k)) := by
  unfold centered
  exact congrArg (fun s => x (ix2 p q) - s)
    ((broadcastTo_a1_ab_apply (meanCol x) broadcasts_S1000x1_S1000x512 p q).trans (meanCol_apply x p 0))

theorem varCol_apply (x : Vec Ideal S1000x512 .f32) (p : Fin 1000) (u : Fin 1) :
    varCol x (ix2 p u) = rowVar (fun k => x (ix2 p k)) := by
  unfold varCol rowVar
  refine congrArg (fun s => Ideal.div s width)
    ((shapeCast_a_a1_apply _ shapeCasts_S1000_S1000x1 p u).trans ((laneSum_apply _ rfl p).trans ?_))
  refine Finset.sum_congr rfl fun k _ => ?_
  show centered x (ix2 p k) * centered x (ix2 p k) = _
  rw [centered_apply]

theorem scaleCol_apply (x : Vec Ideal S1000x512 .f32) (p : Fin 1000) (u : Fin 1) :
    scaleCol x (ix2 p u) = Ideal.rsqrt (rowVar (fun k => x (ix2 p k)) + eps) := by
  unfold scaleCol
  exact congrArg (fun s => Ideal.rsqrt (s + eps)) (varCol_apply x p u)

/-- The body's stored value at row p, column q of a block: the normalized entry of the block's row p. -/
theorem ln_payload (x0 : Vec Ideal S1000x512 .f32) (g b : Vec Ideal S1x512 .f32) (p : Fin 1000) (q : Fin 512) :
    k0_pay1 (F := Ideal) x0 g b (ix2 p q)
      = lnEntry (fun k => x0 (ix2 p k)) (g (ix2 (0 : Fin 1) q)) (b (ix2 (0 : Fin 1) q)) q := by
  rw [pay_eq]
  unfold lnEntry
  show centered x0 (ix2 p q) * broadcastTo S1000x512 (scaleCol x0) broadcasts_S1000x1_S1000x512 (ix2 p q)
        * broadcastTo S1000x512 (shapeCast S1x512 g shapeCasts_S1x512_S1x512) broadcasts_S1x512_S1000x512 (ix2 p q)
      + broadcastTo S1000x512 (shapeCast S1x512 b shapeCasts_S1x512_S1x512) broadcasts_S1x512_S1000x512 (ix2 p q) = _
  rw [centered_apply, broadcastTo_a1_ab_apply, scaleCol_apply, broadcastTo_1b_ab_apply, broadcastTo_1b_ab_apply,
    shapeCast_self, shapeCast_self]

/-! ## From blocks to the array -/

/-- The body reads and writes its whole buffers: every rectangle sits at the zero offsets. -/
theorem zero_offsets : (![0, 0] : Fin 2 → Nat) = fun _ => 0 := funext fun a => by
  match a with
  | ⟨0, _⟩ => rfl
  | ⟨1, _⟩ => rfl

/-- The windows' index maps over the ten grid points: the two row windows sit at row block t, column block 0; the two
    lane vectors are their whole arrays at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Row p of the input block at point t is row 1000 t + p of the array. -/
theorem rows_block (t : Fin cfg0.N) (p : Fin 1000) (k : Fin 512) (r : Fin 10000) (hr : r.val = t.val * 1000 + p.val) :
    (iblk0 (F := Ideal) V c 0 t : Vec Ideal S1000x512 .f32) (ix2 p k) = (V c main_arg0 : S10000x512.Idx → EReal) (ix2 r k) := by
  obtain ⟨e0, e1, -⟩ := block_indices t
  unfold iblk0
  rw [View.read_apply]
  show V c main_arg0 _ = V c main_arg0 _
  refine congrArg (V c main_arg0) (funext fun a => Fin.ext ?_)
  match a with
  | ⟨0, _⟩ => show win0_0.index t (0 : Fin 2) * 1000 + 1 * p.val = r.val; omega
  | ⟨1, _⟩ => show win0_0.index t (1 : Fin 2) * 512 + 1 * k.val = k.val; omega

/-- The γ block at every point is the whole γ row. -/
theorem gamma_block (t : Fin cfg0.N) (q : Fin 512) :
    (iblk0 (F := Ideal) V c 1 t : Vec Ideal S1x512 .f32) (ix2 (0 : Fin 1) q) = (V c main_v0 : S1x512.Idx → EReal) (ix2 (0 : Fin 1) q) := by
  obtain ⟨-, -, e0, e1, -⟩ := block_indices t
  unfold iblk0
  rw [View.read_apply]
  show V c main_v0 _ = V c main_v0 _
  refine congrArg (V c main_v0) (funext fun a => Fin.ext ?_)
  match a with
  | ⟨0, _⟩ => show win0_1.index t (0 : Fin 2) * 1 + 1 * 0 = 0; omega
  | ⟨1, _⟩ => show win0_1.index t (1 : Fin 2) * 512 + 1 * q.val = q.val; omega

/-- The β block at every point is the whole β row. -/
theorem beta_block (t : Fin cfg0.N) (q : Fin 512) :
    (iblk0 (F := Ideal) V c 2 t : Vec Ideal S1x512 .f32) (ix2 (0 : Fin 1) q) = (V c main_v1 : S1x512.Idx → EReal) (ix2 (0 : Fin 1) q) := by
  obtain ⟨-, -, -, -, e0, e1, -⟩ := block_indices t
  unfold iblk0
  rw [View.read_apply]
  show V c main_v1 _ = V c main_v1 _
  refine congrArg (V c main_v1) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- What the body stores at (p, q) of the block at point t is entry (1000 t + p, q) of the normalized matrix. -/
theorem block_entry (t : Fin cfg0.N) (p : Fin 1000) (q : Fin 512) (r : Fin 10000) (hr : r.val = t.val * 1000 + p.val) :
    k0_pay1 (F := Ideal) (iblk0 V c 0 t) (iblk0 V c 1 t) (iblk0 V c 2 t) (ix2 p q)
      = lnArr (R := 10000) (V c main_arg0) (fun q => V c main_v0 (ix2 (0 : Fin 1) q)) (fun q => V c main_v1 (ix2 (0 : Fin 1) q)) (ix2 r q) := by
  refine (ln_payload (iblk0 V c 0 t) (iblk0 V c 1 t) (iblk0 V c 2 t) p q).trans ?_
  rw [lnArr_ix2]
  have e0 : (fun k : Fin 512 => (iblk0 (F := Ideal) V c 0 t : Vec Ideal S1000x512 .f32) (ix2 p k))
      = fun k => (V c main_arg0 : S10000x512.Idx → EReal) (ix2 r k) := funext fun k => rows_block V c t p k r hr
  exact (congrArg (fun row => lnEntry row _ _ q) e0).trans
    ((congrArg (fun g => lnEntry _ g _ q) (gamma_block V c t q)).trans
      (congrArg (fun b => lnEntry _ _ b q) (beta_block V c t q)))

/-- What point t writes back is block t of the normalized matrix of the array the region found. -/
theorem ln_flushed (t : Fin cfg0.N) :
    (dat0 (F := Ideal) V c).flushed 3 t
      = ((cfg0.win 3).blk t).view.read (Elt Ideal)
          (lnArr (R := 10000) (V c main_arg0) (fun q => V c main_v0 (ix2 (0 : Fin 1) q)) (fun q => V c main_v1 (ix2 (0 : Fin 1) q))) := by
  show (cfg0.win 3).cut (grid0.coords t) ((dat0 V c).after 3 t) = _
  rw [after0_3]
  unfold out0_3
  rw [View.canon_unit_zero zero_offsets]
  simp only [View.ld_unit_zero (S := S1000x512) zero_offsets, View.ld_unit_zero (S := S1x512) zero_offsets]
  funext j
  obtain ⟨p, q, rfl⟩ : ∃ (p : Fin 1000) (q : Fin 512), j = ix2 p q := ⟨j 0, j 1, eq_ix2 j⟩
  have hN : cfg0.N = 10 := N_0
  have ht : t.val < 10 := hN ▸ t.isLt
  obtain ⟨-, -, -, -, -, -, e0, e1⟩ := block_indices t
  rw [View.read_apply]
  show k0_pay1 (F := Ideal) (iblk0 V c 0 t) (iblk0 V c 1 t) (iblk0 V c 2 t) (ix2 p q)
    = lnArr (R := 10000) (V c main_arg0) (fun q => V c main_v0 (ix2 (0 : Fin 1) q)) (fun q => V c main_v1 (ix2 (0 : Fin 1) q))
        (((cfg0.win 3).blk t).view.emb (ix2 p q))
  have hi : ((cfg0.win 3).blk t).view.emb (ix2 p q) = ix2 (⟨t.val * 1000 + p.val, by omega⟩ : Fin 10000) q := by
    funext a; apply Fin.ext
    match a with
    | ⟨0, _⟩ => show win0_3.index t (0 : Fin 2) * 1000 + 1 * p.val = t.val * 1000 + p.val; omega
    | ⟨1, _⟩ => show win0_3.index t (1 : Fin 2) * 512 + 1 * q.val = q.val; omega
  rw [hi]
  exact block_entry V c t p q _ rfl

/-- Every index of the output lies in the block of the point its row falls in. -/
theorem ln_cover (i : S10000x512.Idx) :
    ∃ t : Fin cfg0.N, (cfg0.win 3).flush t = true ∧ i ∈ ((cfg0.win 3).blk t).view.set := by
  have hN : cfg0.N = 10 := N_0
  have h0 : (i 0).val < 10000 := (i 0).isLt
  have h1 : (i 1).val < 512 := (i 1).isLt
  let t : Fin cfg0.N := ⟨(i 0).val / 1000, by rw [hN]; omega⟩
  obtain ⟨-, -, -, -, -, -, e0, e1⟩ := block_indices t
  have ht : t.val = (i 0).val / 1000 := rfl
  refine ⟨t, flush0_3 t, ?_⟩
  show i ∈ ((View.whole main_v2).slice (win0_3.rect t)).set
  rw [View.set_slice_whole, Rect.mem_set_unit]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 512 ≤ (i 1).val ∧ (i 1).val < win0_3.index t (1 : Fin 2) * 512 + 512; omega

end Blocks

/-- The output array after the region, whatever contents `V` the region found. -/
theorem ln_region (V : (c : Dev nD) → (b : Ref sig .tc) → Buf (Elt Ideal) ((c : Thread nD τ).loc b)) (c : Dev nD) :
    (dat0 (F := Ideal) V c).arrAt 3 cfg0.N
      = lnArr (R := 10000) (V c main_arg0) (fun q => V c main_v0 (ix2 (0 : Fin 1) q)) (fun q => V c main_v1 (ix2 (0 : Fin 1) q)) := by
  exact (dat0 (F := Ideal) V c).arrAt_eq_of_cover 3 _ (fun t _ => ln_flushed V c t) ln_cover

end Cert.KernelIdeal.LayerNormBlock

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.DenseBlock.lean ====
/-
  The second region: every block of 1000 whole rows is the two products, the bias, the rectifier and the residual
  of the same rows, so the whole array ends as the dense matrix of the arrays the region found.
-/
import proofs.«173820_j56375740727935_1_alg».proof.Proof.Gen.KernelIdeal.Frame
import proofs.«173820_j56375740727935_1_alg».proof.Proof.Spec
import proofs.«173820_j56375740727935_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseBlock

open Idealize.ShloMosaic Idealize.ShloMosaic.TcCoe Idealize.SL.Sem Idealize.ShloMosaic.ValueIdx
open Cert.KernelIdeal Cert.KernelIdeal.Gen Cert.SageSpec

/-- The body's stored value at row p, column q of a block. -/
theorem dense_payload (xa xx : Vec Ideal S1000x512 .f32) (wl wr : Vec Ideal S512x512 .f32) (bl : Vec Ideal S1x512 .f32)
    (xr : Vec Ideal S1000x512 .f32) (p : Fin 1000) (q : Fin 512) :
    k1_pay1 (F := Ideal) xa xx wl wr bl xr (ix2 p q)
      = denseEntry (fun k => xa (ix2 p k)) (fun k => xx (ix2 p k)) (fun k => wl (ix2 k q)) (fun k => wr (ix2 k q))
          (bl (ix2 (0 : Fin 1) q)) (xr (ix2 p q)) := by
  unfold k1_pay1 denseEntry
  simp only [shapeCast_self, Idealize.ShloMosaic.matmul]
  rw [addf_apply, maximumf_apply, addf_apply, addf_apply, broadcast_apply,
    Cert.LibDense.matmul_zero_apply dot_S1000x512_S512x512_S1000x512_1_0_0_1_n_n none rfl rfl rfl rfl rfl rfl,
    Cert.LibDense.matmul_zero_apply dot_S1000x512_S512x512_S1000x512_1_0_0_1_n_n none rfl rfl rfl rfl rfl rfl,
    broadcastTo_apply bl broadcasts_S1x512_S1000x512 (ix2 p q) (ix2 (0 : Fin 1) q)
      (fun a => by match a with | ⟨0, _⟩ => rfl | ⟨1, _⟩ => rfl)]
  simp only [truncf_apply]
  rfl

section Blocks

variable (V : (c : Dev nD) → (b : Ref sig .tc) → Buf (Elt Ideal) ((c : Thread nD τ).loc b))

/-- The two zero offsets of a whole-buffer access, as the constant function. -/
theorem zero_offsets : (![0, 0] : Fin 2 → Nat) = fun _ => 0 := funext fun a => by fin_cases a <;> rfl

/-- The grid has ten points. -/
theorem ten_points : cfg1.N = 10 := by decide

/-- The windows' block indices at the ten points: a window of 1000 rows sits at block (t, 0), a window that is its
    whole array at block (0, 0). -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The aggregated rows' block at point t, read at (p, k), is the array at row 1000 t + p. -/
theorem agg_block (c : Dev nD) (t : Fin cfg1.N) (p : Fin 1000) (P : Fin 10000) (hP : P.val = 1000 * t.val + p.val) (k : Fin 512) :
    (iblk1 (F := Ideal) V c 0 t : Vec Ideal S1000x512 .f32) (ix2 p k) = (V c main_v25 : S10000x512.Idx → EReal) (ix2 P k) := by
  obtain ⟨⟨e0, e1⟩, -⟩ := block_indices t
  unfold iblk1
  rw [View.read_apply]
  show V c main_v25 _ = V c main_v25 _
  congr 1
  funext a; apply Fin.ext
  match a with
  | ⟨0, _⟩ => show win1_0.index t 0 * 1000 + 1 * p.val = P.val; rw [e0, hP]; omega
  | ⟨1, _⟩ => show win1_0.index t 1 * 512 + 1 * k.val = k.val; rw [e1]; omega

/-- The normalized rows' block at point t, read at (p, k), is the array at row 1000 t + p. -/
theorem norm_block (c : Dev nD) (t : Fin cfg1.N) (p : Fin 1000) (P : Fin 10000) (hP : P.val = 1000 * t.val + p.val) (k : Fin 512) :
    (iblk1 (F := Ideal) V c 1 t : Vec Ideal S1000x512 .f32) (ix2 p k) = (V c main_v2 : S10000x512.Idx → EReal) (ix2 P k) := by
  obtain ⟨-, ⟨e0, e1⟩, -⟩ := block_indices t
  unfold iblk1
  rw [View.read_apply]
  show V c main_v2 _ = V c main_v2 _
  congr 1
  funext a; apply Fin.ext
  match a with
  | ⟨0, _⟩ => show win1_1.index t 0 * 1000 + 1 * p.val = P.val; rw [e0, hP]; omega
  | ⟨1, _⟩ => show win1_1.index t 1 * 512 + 1 * k.val = k.val; rw [e1]; omega

/-- The residual rows' block at point t, read at (p, k), is the array at row 1000 t + p. -/
theorem res_block (c : Dev nD) (t : Fin cfg1.N) (p : Fin 1000) (P : Fin 10000) (hP : P.val = 1000 * t.val + p.val) (k : Fin 512) :
    (iblk1 (F := Ideal) V c 2 t : Vec Ideal S1000x512 .f32) (ix2 p k) = (V c main_arg0 : S10000x512.Idx → EReal) (ix2 P k) := by
  obtain ⟨-, -, ⟨e0, e1⟩, -⟩ := block_indices t
  unfold iblk1
  rw [View.read_apply]
  show V c main_arg0 _ = V c main_arg0 _
  congr 1
  funext a; apply Fin.ext
  match a with
  | ⟨0, _⟩ => show win1_2.index t 0 * 1000 + 1 * p.val = P.val; rw [e0, hP]; omega
  | ⟨1, _⟩ => show win1_2.index t 1 * 512 + 1 * k.val = k.val; rw [e1]; omega

/-- The left weight matrix is one block at every point. -/
theorem left_block (c : Dev nD) (t : Fin cfg1.N) (k q : Fin 512) :
    (iblk1 (F := Ideal) V c 3 t : Vec Ideal S512x512 .f32) (ix2 k q) = (V c main_v26 : S512x512.Idx → EReal) (ix2 k q) := by
  obtain ⟨-, -, -, ⟨e0, e1⟩, -⟩ := block_indices t
  unfold iblk1
  rw [View.read_apply]
  show V c main_v26 _ = V c main_v26 _
  congr 1
  funext a; apply Fin.ext
  match a with
  | ⟨0, _⟩ => show win1_3.index t 0 * 512 + 1 * k.val = k.val; rw [e0]; omega
  | ⟨1, _⟩ => show win1_3.index t 1 * 512 + 1 * q.val = q.val; rw [e1]; omega

/-- The bias row is one block at every point. -/
theorem bias_block (c : Dev nD) (t : Fin cfg1.N) (q : Fin 512) :
    (iblk1 (F := Ideal) V c 4 t : Vec Ideal S1x512 .f32) (ix2 (0 : Fin 1) q) = (V c main_v28 : S1x512.Idx → EReal) (ix2 (0 : Fin 1) q) := by
  obtain ⟨-, -, -, -, ⟨e0, e1⟩, -⟩ := block_indices t
  unfold iblk1
  rw [View.read_apply]
  show V c main_v28 _ = V c main_v28 _
  congr 1
  funext a; apply Fin.ext
  match a with
  | ⟨0, _⟩ => show win1_4.index t 0 * 1 + 1 * (0 : Fin 1).val = (0 : Fin 1).val; rw [e0]; rfl
  | ⟨1, _⟩ => show win1_4.index t 1 * 512 + 1 * q.val = q.val; rw [e1]; omega

/-- The right weight matrix is one block at every point. -/
theorem right_block (c : Dev nD) (t : Fin cfg1.N) (k q : Fin 512) :
    (iblk1 (F := Ideal) V c 5 t : Vec Ideal S512x512 .f32) (ix2 k q) = (V c main_v27 : S512x512.Idx → EReal) (ix2 k q) := by
  obtain ⟨-, -, -, -, -, ⟨e0, e1⟩, -⟩ := block_indices t
  unfold iblk1
  rw [View.read_apply]
  show V c main_v27 _ = V c main_v27 _
  congr 1
  funext a; apply Fin.ext
  match a with
  | ⟨0, _⟩ => show win1_5.index t 0 * 512 + 1 * k.val = k.val; rw [e0]; omega
  | ⟨1, _⟩ => show win1_5.index t 1 * 512 + 1 * q.val = q.val; rw [e1]; omega

/-- The dense matrix of the arrays the region finds. -/
abbrev denseOf (c : Dev nD) : Mat 10000 512 :=
  denseArr (R := 10000) (V c main_v25) (V c main_v2) (V c main_arg0) (V c main_v26) (V c main_v27)
    (fun q => V c main_v28 (ix2 (0 : Fin 1) q))

/-- What the body stores at (p, q) of the block at point t is the dense entry of row 1000 t + p, column q. -/
theorem dense_block_entry (c : Dev nD) (t : Fin cfg1.N) (p : Fin 1000) (P : Fin 10000) (hP : P.val = 1000 * t.val + p.val) (q : Fin 512) :
    k1_pay1 (F := Ideal) (iblk1 V c 0 t) (iblk1 V c 1 t) (iblk1 V c 3 t) (iblk1 V c 5 t) (iblk1 V c 4 t) (iblk1 V c 2 t) (ix2 p q)
      = denseOf V c (ix2 P q) := by
  refine (dense_payload (iblk1 V c 0 t) (iblk1 V c 1 t) (iblk1 V c 3 t) (iblk1 V c 5 t) (iblk1 V c 4 t) (iblk1 V c 2 t) p q).trans ?_
  unfold denseOf
  rw [denseArr_ix2]
  have ha : (fun k => (iblk1 (F := Ideal) V c 0 t : Vec Ideal S1000x512 .f32) (ix2 p k)) = fun k => (V c main_v25 : S10000x512.Idx → EReal) (ix2 P k) :=
    funext fun k => agg_block V c t p P hP k
  have hx : (fun k => (iblk1 (F := Ideal) V c 1 t : Vec Ideal S1000x512 .f32) (ix2 p k)) = fun k => (V c main_v2 : S10000x512.Idx → EReal) (ix2 P k) :=
    funext fun k => norm_block V c t p P hP k
  have hl : (fun k => (iblk1 (F := Ideal) V c 3 t : Vec Ideal S512x512 .f32) (ix2 k q)) = fun k => (V c main_v26 : S512x512.Idx → EReal) (ix2 k q) :=
    funext fun k => left_block V c t k q
  have hr : (fun k => (iblk1 (F := Ideal) V c 5 t : Vec Ideal S512x512 .f32) (ix2 k q)) = fun k => (V c main_v27 : S512x512.Idx → EReal) (ix2 k q) :=
    funext fun k => right_block V c t k q
  rw [ha, hx, hl, hr, bias_block V c t q, res_block V c t p P hP q]

/-- What point t writes back is block t of the dense matrix. -/
theorem dense_flushed (c : Dev nD) (t : Fin cfg1.N) :
    (dat1 (F := Ideal) V c).flushed 6 t = ((cfg1.win 6).blk t).view.read (Elt Ideal) (denseOf V c) := by
  show (cfg1.win 6).cut (grid1.coords t) ((dat1 V c).after 6 t) = _
  rw [after1_6]
  unfold out1_6
  rw [View.canon_unit_zero zero_offsets]
  simp only [View.ld_unit_zero (S := S1000x512) zero_offsets, View.ld_unit_zero (S := S512x512) zero_offsets,
    View.ld_unit_zero (S := S1x512) zero_offsets]
  obtain ⟨-, -, -, -, -, -, ⟨e0, e1⟩⟩ := block_indices t
  have hN := ten_points
  funext j
  obtain ⟨p, q, rfl⟩ : ∃ (p : Fin 1000) (q : Fin 512), j = ix2 p q := ⟨j 0, j 1, eq_ix2 j⟩
  have hP : 1000 * t.val + p.val < 10000 := by have := t.isLt; have := p.isLt; omega
  rw [View.read_apply]
  show k1_pay1 (F := Ideal) (iblk1 V c 0 t) (iblk1 V c 1 t) (iblk1 V c 3 t) (iblk1 V c 5 t) (iblk1 V c 4 t) (iblk1 V c 2 t) (ix2 p q)
    = denseOf V c (((cfg1.win 6).blk t).view.emb (ix2 p q))
  have hemb : ((cfg1.win 6).blk t).view.emb (ix2 p q) = (ix2 (⟨1000 * t.val + p.val, hP⟩ : Fin 10000) q : S10000x512.Idx) := by
    funext a; apply Fin.ext
    match a with
    | ⟨0, _⟩ => show win1_6.index t 0 * 1000 + 1 * p.val = 1000 * t.val + p.val; rw [e0]; omega
    | ⟨1, _⟩ => show win1_6.index t 1 * 512 + 1 * q.val = q.val; rw [e1]; omega
  rw [hemb]
  exact dense_block_entry V c t p ⟨1000 * t.val + p.val, hP⟩ rfl q

/-- Every index of the output lies in the block of the point its row falls in, and every point writes back. -/
theorem dense_cover (i : S10000x512.Idx) :
    ∃ t : Fin cfg1.N, (cfg1.win 6).flush t = true ∧ i ∈ ((cfg1.win 6).blk t).view.set := by
  have hN := ten_points
  have hi0 : (i 0).val < 10000 := (i 0).isLt
  have hi1 : (i 1).val < 512 := (i 1).isLt
  obtain ⟨t, ht⟩ : ∃ t : Fin cfg1.N, t.val = (i 0).val / 1000 := ⟨⟨(i 0).val / 1000, by rw [hN]; omega⟩, rfl⟩
  obtain ⟨-, -, -, -, -, -, ⟨e0, e1⟩⟩ := block_indices t
  refine ⟨t, flush1_6 t, ?_⟩
  show i ∈ ((View.whole main_v29).slice (win1_6.rect t)).set
  rw [View.set_slice_whole, Rect.mem_set_unit]
  intro a
  match a with
  | ⟨0, _⟩ => show win1_6.index t 0 * 1000 ≤ (i 0).val ∧ (i 0).val < win1_6.index t 0 * 1000 + 1000; rw [e0, ht]; omega
  | ⟨1, _⟩ => show win1_6.index t 1 * 512 ≤ (i 1).val ∧ (i 1).val < win1_6.index t 1 * 512 + 512; rw [e1]; omega

end Blocks

/-- The output array after the region, whatever contents `V` the region found. -/
theorem dense_region (V : (c : Dev nD) → (b : Ref sig .tc) → Buf (Elt Ideal) ((c : Thread nD τ).loc b)) (c : Dev nD) :
    (dat1 (F := Ideal) V c).arrAt 6 cfg1.N
      = denseArr (R := 10000) (V c main_v25) (V c main_v2) (V c main_arg0) (V c main_v26) (V c main_v27)
          (fun q => V c main_v28 (ix2 (0 : Fin 1) q)) :=
  (dat1 (F := Ideal) V c).arrAt_eq_of_cover 6 (denseOf V c) (fun t _ => dense_flushed V c t) (fun i => dense_cover i)

end Cert.KernelIdeal.DenseBlock

end
-- ==== Proof.KernelValue.lean ====
/-
  The kernel program's result as one function of its argument arrays. The first region leaves the normalized matrix
  of the node features (scale and shift the two reshaped parameter vectors); the host operations between the regions
  take its neighbour mean along the edge list and transpose the two weight matrices; the second region leaves the
  dense matrix of the mean, the normalized matrix, the node features (the residual), the two transposed weights and
  the reshaped bias.
-/
import proofs.«173820_j56375740727935_1_alg».proof.Proof.Gen.KernelIdeal.Frame
import proofs.«173820_j56375740727935_1_alg».proof.Proof.Spec
import proofs.«173820_j56375740727935_1_alg».proof.Proof.HostMean
import proofs.«173820_j56375740727935_1_alg».proof.Proof.LayerNormBlock
import proofs.«173820_j56375740727935_1_alg».proof.Proof.DenseBlock
import Idealize.ShloMosaic.Lib.StableHlo.Run
import Idealize.ShloMosaic.Lib.Pipeline.Value
import Idealize.ShloMosaic.Lib.ValueIdx

set_option maxRecDepth 16384

noncomputable section

namespace Cert.KernelIdeal.ResultValue

open Idealize.ShloMosaic Idealize.ShloMosaic.TcCoe Idealize.SL.Sem Idealize.ShloMosaic.StableHlo Idealize.ShloMosaic.ValueIdx
open Cert.KernelIdeal Cert.KernelIdeal.Gen Cert.SageSpec Cert.KernelIdeal.HostMean
open Cert.KernelIdeal.LayerNormBlock Cert.KernelIdeal.DenseBlock

variable (m : (ℓ : Loc nD τ sig) → Buf (Elt Ideal) ℓ) (ρ : Dev nD → PrngReg)

/-- A vector of 512 reshaped to one row of 512, read at column q. -/
theorem row_of_reshape (v : S512.Idx → EReal) (h : S512.ShapeCasts S1x512) (q : Fin 512) :
    shapeCast S1x512 v h (ix2 (0 : Fin 1) q) = v (ix1 q) := by
  refine (shapeCast_addUnit_apply ![512] v h (ix2 (0 : Fin 1) q)).trans ?_
  exact congrArg v (funext fun a => match a with | ⟨0, _⟩ => rfl)

/-! ## What the first region finds -/

theorem entry0_features (c : Dev nD) : V1 m ρ c main_arg0 = m ((c : Thread nD τ).loc main_arg0) := by
  show StableHlo.after hostOps0 (W0 m ρ c) (Proc.devRef .tc main_arg0) = _
  after_results <;> rfl

theorem entry0_scale (c : Dev nD) :
    (V1 m ρ c main_v0 : S1x512.Idx → EReal) = shapeCast S1x512 (m ((c : Thread nD τ).loc main_arg2)) shapeCasts_S512_S1x512 := by
  show StableHlo.after hostOps0 (W0 m ρ c) (Proc.devRef .tc main_v0) = _
  after_results <;> rfl

theorem entry0_shift (c : Dev nD) :
    (V1 m ρ c main_v1 : S1x512.Idx → EReal) = shapeCast S1x512 (m ((c : Thread nD τ).loc main_arg3)) shapeCasts_S512_S1x512 := by
  show StableHlo.after hostOps0 (W0 m ρ c) (Proc.devRef .tc main_v1) = _
  after_results <;> rfl

/-! ## After the first region -/

/-- The first region writes only its output array: an argument it reads through a window is as launched. -/
theorem mid_features (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (entry0_features m ρ c)

/-- An argument no window of the first region touches is as launched. -/
theorem mid_edges (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem mid_wl (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem mid_bias (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem mid_wr (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

/-- The first region's output array: the normalized matrix of the node features. -/
theorem mid_normalized (c : Dev nD) :
    W2 m ρ c (Proc.devRef .tc main_v2)
      = lnArr (R := 10000) (m ((c : Thread nD τ).loc main_arg0)) (fun q => m ((c : Thread nD τ).loc main_arg2) (ix1 q))
          (fun q => m ((c : Thread nD τ).loc main_arg3) (ix1 q)) := by
  refine (W2_arr m ρ c 3).trans ((ln_region (V1 m ρ) c).trans ?_)
  have hγ : (fun q : Fin 512 => V1 m ρ c main_v0 (ix2 (0 : Fin 1) q)) = fun q => m ((c : Thread nD τ).loc main_arg2) (ix1 q) :=
    funext fun q => (congrFun (entry0_scale m ρ c) _).trans (row_of_reshape _ _ q)
  have hβ : (fun q : Fin 512 => V1 m ρ c main_v1 (ix2 (0 : Fin 1) q)) = fun q => m ((c : Thread nD τ).loc main_arg3) (ix1 q) :=
    funext fun q => (congrFun (entry0_shift m ρ c) _).trans (row_of_reshape _ _ q)
  rw [hγ, hβ, entry0_features m ρ c]

/-! ## What the second region finds -/

set_option maxHeartbeats 8000000 in
theorem entry1_mean (c : Dev nD) :
    V3 m ρ c main_v25 = neighbourMean (F := Ideal) (W2 m ρ c (Proc.devRef .tc main_v2)) (W2 m ρ c (Proc.devRef .tc main_arg1)) := by
  show StableHlo.after hostOps1 (W2 m ρ c) (Proc.devRef .tc main_v25) = _
  after_results
  unfold neighbourMean destinations sources fromEnd
  rfl

theorem entry1_normalized (c : Dev nD) : V3 m ρ c main_v2 = W2 m ρ c (Proc.devRef .tc main_v2) := by
  show StableHlo.after hostOps1 (W2 m ρ c) (Proc.devRef .tc main_v2) = _
  after_results <;> rfl

theorem entry1_features (c : Dev nD) : V3 m ρ c main_arg0 = W2 m ρ c (Proc.devRef .tc main_arg0) := by
  show StableHlo.after hostOps1 (W2 m ρ c) (Proc.devRef .tc main_arg0) = _
  after_results <;> rfl

theorem entry1_wl (c : Dev nD) :
    V3 m ρ c main_v26 = transpose S512x512 [1, 0] (W2 m ρ c (Proc.devRef .tc main_arg4)) transposes_S512x512_S512x512_1_0 := by
  show StableHlo.after hostOps1 (W2 m ρ c) (Proc.devRef .tc main_v26) = _
  after_results <;> rfl

theorem entry1_wr (c : Dev nD) :
    V3 m ρ c main_v27 = transpose S512x512 [1, 0] (W2 m ρ c (Proc.devRef .tc main_arg6)) transposes_S512x512_S512x512_1_0 := by
  show StableHlo.after hostOps1 (W2 m ρ c) (Proc.devRef .tc main_v27) = _
  after_results <;> rfl

theorem entry1_bias (c : Dev nD) :
    (V3 m ρ c main_v28 : S1x512.Idx → EReal) = shapeCast S1x512 (W2 m ρ c (Proc.devRef .tc main_arg5)) shapeCasts_S512_S1x512 := by
  show StableHlo.after hostOps1 (W2 m ρ c) (Proc.devRef .tc main_v28) = _
  after_results <;> rfl

/-! ## The result -/

/-- The program's result as one function of the launch contents of its arguments: the dense matrix of the neighbour
    mean of the normalized features, the normalized features, the features, the transposed weights and the bias. -/
def result (c : Dev nD) : Buf (Elt Ideal) ((c.tc : Thread nD τ).loc main_v29) :=
  denseArr (R := 10000)
    (neighbourMean (F := Ideal)
      (lnArr (R := 10000) (m ((c : Thread nD τ).loc main_arg0)) (fun q => m ((c : Thread nD τ).loc main_arg2) (ix1 q))
        (fun q => m ((c : Thread nD τ).loc main_arg3) (ix1 q)))
      (m ((c : Thread nD τ).loc main_arg1)))
    (lnArr (R := 10000) (m ((c : Thread nD τ).loc main_arg0)) (fun q => m ((c : Thread nD τ).loc main_arg2) (ix1 q))
      (fun q => m ((c : Thread nD τ).loc main_arg3) (ix1 q)))
    (m ((c : Thread nD τ).loc main_arg0))
    (transpose S512x512 [1, 0] (m ((c : Thread nD τ).loc main_arg4)) transposes_S512x512_S512x512_1_0)
    (transpose S512x512 [1, 0] (m ((c : Thread nD τ).loc main_arg6)) transposes_S512x512_S512x512_1_0)
    (fun q => m ((c : Thread nD τ).loc main_arg5) (ix1 q))

/-- The result buffer after the run is that function of the launch contents. -/
theorem result_value (c : Dev nD) : W4 m ρ c (Proc.devRef .tc main_v29) = result m c := by
  unfold result
  refine (W4_arr m ρ c 6).trans ((dense_region (V3 m ρ) c).trans ?_)
  have hb : (fun q : Fin 512 => V3 m ρ c main_v28 (ix2 (0 : Fin 1) q)) = fun q => m ((c : Thread nD τ).loc main_arg5) (ix1 q) :=
    funext fun q => ((congrFun (entry1_bias m ρ c) _).trans (row_of_reshape _ _ q)).trans (congrFun (mid_bias m ρ c) _)
  rw [hb, entry1_mean m ρ c, entry1_normalized m ρ c, entry1_features m ρ c, entry1_wl m ρ c, entry1_wr m ρ c,
    mid_normalized m ρ c, mid_features m ρ c, mid_edges m ρ c, mid_wl m ρ c, mid_wr m ρ c]

end Cert.KernelIdeal.ResultValue

end
-- ==== Proof.RefValue.lean ====
/-
  The reference program's result is the same function of the argument arrays: its normalized matrix is the
  specification's, its neighbour mean is the one function both programs apply to it, and its last stages are the
  dense matrix with the bias added before the second product, which is the same extended real.
-/
import proofs.«173820_j56375740727935_1_alg».proof.Proof.Gen.ReferenceIdeal.Read
import proofs.«173820_j56375740727935_1_alg».proof.Proof.Spec
import proofs.«173820_j56375740727935_1_alg».proof.Proof.HostMean
import proofs.«173820_j56375740727935_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.SageSpec Cert.KernelIdeal.HostMean

/-! ## Where the broadcasts read

An entry (p, q) of a row-wise quantity reads the one-column matrix at (p, 0), that reads the vector at p, and the
vector's sum at p runs over the entries (p, k) of the row. A column vector broadcast over the rows is read at q. -/

/-- The one-column index under entry (p, q). -/
theorem colIdx_v4 (p : Fin 10000) (q : Fin 512) : idx_main_v4 (ix2 p q) = ix2 p (0 : Fin 1) :=
  funext fun a => Fin.ext (by match a with | ⟨0, _⟩ => rfl | ⟨1, _⟩ => rfl)
theorem colIdx_v11 (p : Fin 10000) (q : Fin 512) : idx_main_v11 (ix2 p q) = ix2 p (0 : Fin 1) :=
  funext fun a => Fin.ext (by match a with | ⟨0, _⟩ => rfl | ⟨1, _⟩ => rfl)
theorem colIdx_v16 (p : Fin 10000) (q : Fin 512) : idx_main_v16 (ix2 p q) = ix2 p (0 : Fin 1) :=
  funext fun a => Fin.ext (by match a with | ⟨0, _⟩ => rfl | ⟨1, _⟩ => rfl)
/-- The vector index under the one-column index of row p. -/
theorem rowIdx_v1 (p : Fin 10000) : idx_main_v1 (ix2 p (0 : Fin 1)) = ix1 p :=
  funext fun a => Fin.ext (by match a with | ⟨0, _⟩ => rfl)
theorem rowIdx_v8 (p : Fin 10000) : idx_main_v8 (ix2 p (0 : Fin 1)) = ix1 p :=
  funext fun a => Fin.ext (by match a with | ⟨0, _⟩ => rfl)
/-- The k-th summand of row p's sum is entry (p, k). -/
theorem sumIdx_v0 (p : Fin 10000) (k : Fin 512) : idx_main_v0 (ix1 p) k = ix2 p k :=
  funext fun a => Fin.ext (by match a with | ⟨0, _⟩ => rfl | ⟨1, _⟩ => rfl)
theorem sumIdx_v7 (p : Fin 10000) (k : Fin 512) : idx_main_v7 (ix1 p) k = ix2 p k :=
  funext fun a => Fin.ext (by match a with | ⟨0, _⟩ => rfl | ⟨1, _⟩ => rfl)
/-- A 512-vector broadcast first to one row and then over all rows is read, at entry (p, q), at q. -/
theorem vecIdx_v19 (p : Fin 10000) (q : Fin 512) : idx_main_v18 (idx_main_v19 (ix2 p q)) = ix1 q :=
  funext fun a => Fin.ext (by match a with | ⟨0, _⟩ => rfl)
theorem vecIdx_v22 (p : Fin 10000) (q : Fin 512) : idx_main_v21 (idx_main_v22 (ix2 p q)) = ix1 q :=
  funext fun a => Fin.ext (by match a with | ⟨0, _⟩ => rfl)

/-! ## The normalized matrix -/

/-- The reference's column of row means holds, at row p, the mean of row p. -/
theorem mean_col (x0 : (⟨S10000x512, .f32⟩ : BufTy).Contents (Elt Ideal)) (p : Fin 10000) :
    val_main_v3 (F := Ideal) x0 (ix2 p (0 : Fin 1)) = rowMean (fun k => x0 (ix2 p k)) := by
  rw [val_main_v3_apply, val_main_v1_apply, val_main_v2_apply, val_main_cst_0_apply, rowIdx_v1, val_main_v0_apply,
    val_main_cst_apply]
  simp only [sumIdx_v0, Ideal.hostDivf_def, Ideal.ofBits_def, Ideal.ofBits_zero_f32, zero_add]
  rfl

/-- The reference's column of row variances holds, at row p, the variance of row p about its mean. -/
theorem var_col (x0 : (⟨S10000x512, .f32⟩ : BufTy).Contents (Elt Ideal)) (p : Fin 10000) :
    val_main_v10 (F := Ideal) x0 (ix2 p (0 : Fin 1)) = rowVar (fun k => x0 (ix2 p k)) := by
  rw [val_main_v10_apply, val_main_v8_apply, val_main_v9_apply, val_main_cst_2_apply, rowIdx_v8, val_main_v7_apply,
    val_main_cst_1_apply]
  simp only [sumIdx_v7, val_main_v6_apply, val_main_v5_apply, val_main_v4_apply, colIdx_v4, mean_col,
    Ideal.hostDivf_def, Ideal.mulf_def, Ideal.subf_def, Ideal.ofBits_def, Ideal.ofBits_zero_f32, zero_add]
  rfl

/-- The reference's normalized matrix is the specification's. -/
theorem ref_norm (x0 : (⟨S10000x512, .f32⟩ : BufTy).Contents (Elt Ideal)) (x2 x3 : (⟨S512, .f32⟩ : BufTy).Contents (Elt Ideal)) :
    val_main_v23 (F := Ideal) x0 x2 x3 = lnArr (R := 10000) x0 (fun q => x2 (ix1 q)) (fun q => x3 (ix1 q)) := by
  funext i
  obtain ⟨p, q, rfl⟩ : ∃ (p : Fin 10000) (q : Fin 512), i = ix2 p q := ⟨i 0, i 1, eq_ix2 i⟩
  rw [lnArr_ix2, val_main_v23_apply, val_main_v20_apply, val_main_v22_apply, val_main_v21_apply, val_main_v17_apply,
    val_main_v19_apply, val_main_v18_apply, val_main_v12_apply, val_main_v11_apply, val_main_v16_apply,
    val_main_v15_apply, val_main_v14_apply, val_main_v13_apply, val_main_cst_3_apply, colIdx_v11, colIdx_v16,
    mean_col, var_col, vecIdx_v19, vecIdx_v22]
  simp only [Ideal.addf_def, Ideal.mulf_def, Ideal.subf_def, Ideal.hostUnary_rsqrt_def, Ideal.ofBits_def]
  rfl

/-! ## The neighbour mean -/

/-- The reference's neighbour mean is the one function both programs apply, of its normalized matrix. -/
theorem ref_mean (x0 : (⟨S10000x512, .f32⟩ : BufTy).Contents (Elt Ideal)) (x1 : (⟨S2x150000, .i32⟩ : BufTy).Contents (Elt Ideal))
    (x2 x3 : (⟨S512, .f32⟩ : BufTy).Contents (Elt Ideal)) :
    val_main_v46 (F := Ideal) x0 x1 x2 x3 = neighbourMean (F := Ideal) (val_main_v23 (F := Ideal) x0 x2 x3) x1 := by
  unfold val_main_v46 val_main_v37 val_main_v34
  generalize val_main_v23 (F := Ideal) x0 x2 x3 = y
  unfold val_main_v45 val_main_v44 val_main_v43 val_main_v42 val_main_v41 val_main_v40 val_main_v39 val_main_v38
    val_main_v36 val_main_v35 val_main_v33 val_main_v32 val_main_v31 val_main_v30 val_main_v29 val_main_v28
    val_main_v27 val_main_v26 val_main_v25 val_main_v24 val_main_cst_8 val_main_cst_7 val_main_cst_6 val_main_cst_5
    val_main_c_4 val_main_c
  unfold neighbourMean destinations sources fromEnd
  rfl

/-! ## The dense stage

Entry (p, q) of a product is the sum over k of the left factor at (p, k) times the right factor at (k, q); the bias,
broadcast over the rows, is read at q. -/

/-- The left factor of the k-th term of entry (p, q) of the first product. -/
theorem leftIdx_v48 (p : Fin 10000) (q k : Fin 512) : lidx_main_v48 (ix2 p q) k = ix2 p k :=
  funext fun a => Fin.ext (by match a with | ⟨0, _⟩ => rfl | ⟨1, _⟩ => rfl)
/-- Its right factor. -/
theorem rightIdx_v48 (p : Fin 10000) (q k : Fin 512) : ridx_main_v48 (ix2 p q) k = ix2 k q :=
  funext fun a => Fin.ext (by match a with | ⟨0, _⟩ => rfl | ⟨1, _⟩ => rfl)
/-- The same two for the second product. -/
theorem leftIdx_v53 (p : Fin 10000) (q k : Fin 512) : lidx_main_v53 (ix2 p q) k = ix2 p k :=
  funext fun a => Fin.ext (by match a with | ⟨0, _⟩ => rfl | ⟨1, _⟩ => rfl)
theorem rightIdx_v53 (p : Fin 10000) (q k : Fin 512) : ridx_main_v53 (ix2 p q) k = ix2 k q :=
  funext fun a => Fin.ext (by match a with | ⟨0, _⟩ => rfl | ⟨1, _⟩ => rfl)
/-- The bias vector under entry (p, q). -/
theorem vecIdx_v50 (p : Fin 10000) (q : Fin 512) : idx_main_v49 (idx_main_v50 (ix2 p q)) = ix1 q :=
  funext fun a => Fin.ext (by match a with | ⟨0, _⟩ => rfl)

/-- The reference's two transposed weight matrices are the transposes the other program's constants spell. -/
theorem left_weights (x4 : (⟨S512x512, .f32⟩ : BufTy).Contents (Elt Ideal)) :
    val_main_v47 (F := Ideal) x4
      = transpose Cert.KernelIdeal.S512x512 [1, 0] x4 Cert.KernelIdeal.Gen.transposes_S512x512_S512x512_1_0 := rfl
theorem right_weights (x6 : (⟨S512x512, .f32⟩ : BufTy).Contents (Elt Ideal)) :
    val_main_v52 (F := Ideal) x6
      = transpose Cert.KernelIdeal.S512x512 [1, 0] x6 Cert.KernelIdeal.Gen.transposes_S512x512_S512x512_1_0 := rfl

/-- The reference's result as the dense matrix of the neighbour mean, the normalized matrix and the arguments. -/
theorem ref_value (x0 : (⟨S10000x512, .f32⟩ : BufTy).Contents (Elt Ideal)) (x1 : (⟨S2x150000, .i32⟩ : BufTy).Contents (Elt Ideal))
    (x2 x3 : (⟨S512, .f32⟩ : BufTy).Contents (Elt Ideal)) (x4 : (⟨S512x512, .f32⟩ : BufTy).Contents (Elt Ideal))
    (x5 : (⟨S512, .f32⟩ : BufTy).Contents (Elt Ideal)) (x6 : (⟨S512x512, .f32⟩ : BufTy).Contents (Elt Ideal)) :
    val_main_v56 (F := Ideal) x0 x1 x2 x3 x4 x5 x6
      = denseArr (R := 10000)
          (neighbourMean (F := Ideal) (lnArr (R := 10000) x0 (fun q => x2 (ix1 q)) (fun q => x3 (ix1 q))) x1)
          (lnArr (R := 10000) x0 (fun q => x2 (ix1 q)) (fun q => x3 (ix1 q)))
          x0
          (transpose Cert.KernelIdeal.S512x512 [1, 0] x4 Cert.KernelIdeal.Gen.transposes_S512x512_S512x512_1_0)
          (transpose Cert.KernelIdeal.S512x512 [1, 0] x6 Cert.KernelIdeal.Gen.transposes_S512x512_S512x512_1_0)
          (fun q => x5 (ix1 q)) := by
  funext i
  obtain ⟨p, q, rfl⟩ : ∃ (p : Fin 10000) (q : Fin 512), i = ix2 p q := ⟨i 0, i 1, eq_ix2 i⟩
  rw [denseArr_ix2, ← denseEntry'_eq, val_main_v56_apply, val_main_v55_apply, val_main_call0_v0_apply,
    val_main_call0_cst_apply, val_main_v54_apply, val_main_v51_apply, val_main_v53_apply, val_main_v48_apply,
    val_main_v50_apply, val_main_v49_apply, vecIdx_v50, ref_mean, ref_norm, left_weights, right_weights]
  simp only [leftIdx_v48, rightIdx_v48, leftIdx_v53, rightIdx_v53, Ideal.addf_def, Ideal.maximumf_def, Ideal.ofBits_def]
  rfl

end Cert.ReferenceIdeal.RefValue

end
-- ==== Proof.lean ====
/-
  Kernel and reference compute one function of their arguments, at every extended real.

  The program normalizes each node's 512 features (mean, variance, the offset ε, a per-column scale and shift),
  averages the normalized rows of each node's incoming neighbours along the edge list, and returns
  max(mean · Lᵀ + x · Rᵀ + b, 0) + features. The kernel program does the normalization and the dense stage in two
  pipelined regions over ten blocks of a thousand whole rows each, with the neighbour mean on the host between them;
  the reference does everything on the host. Block by block the regions leave exactly the row-wise functions of the
  specification; the neighbour mean is the same host operations on both sides, applied to the same normalized
  matrix, and is never opened; the reference adds the bias before the second product and the kernel after it, which
  is one extended real because addition there is commutative and associative. No law used needs finiteness, so the
  precondition is not opened. The idealization rewrote nothing, so its preservation claim is trivial.
-/
import proofs.«173820_j56375740727935_1_alg».proof.Defs
import proofs.«173820_j56375740727935_1_alg».proof.Proof.Gen.Kernel
import proofs.«173820_j56375740727935_1_alg».proof.Proof.Gen.Kernel.Skeleton
import proofs.«173820_j56375740727935_1_alg».proof.Proof.Gen.Kernel.Launch
import proofs.«173820_j56375740727935_1_alg».proof.Proof.Gen.Kernel.Points
import proofs.«173820_j56375740727935_1_alg».proof.Proof.Gen.Kernel.Frame
import proofs.«173820_j56375740727935_1_alg».proof.Proof.Gen.KernelIdeal
import proofs.«173820_j56375740727935_1_alg».proof.Proof.Gen.KernelIdeal.Skeleton
import proofs.«173820_j56375740727935_1_alg».proof.Proof.Gen.KernelIdeal.Launch
import proofs.«173820_j56375740727935_1_alg».proof.Proof.Gen.KernelIdeal.Points
import proofs.«173820_j56375740727935_1_alg».proof.Proof.Gen.KernelIdeal.Frame
import proofs.«173820_j56375740727935_1_alg».proof.Proof.Gen.ReferenceIdeal
import proofs.«173820_j56375740727935_1_alg».proof.Proof.Gen.Pre_finite_inputs
import proofs.«173820_j56375740727935_1_alg».proof.Proof.Gen.ReferenceIdeal.Run
import proofs.«173820_j56375740727935_1_alg».proof.Proof.Gen.ReferenceIdeal.Read
import proofs.«173820_j56375740727935_1_alg».proof.Proof.KernelRun
import proofs.«173820_j56375740727935_1_alg».proof.Proof.KernelValue
import proofs.«173820_j56375740727935_1_alg».proof.Proof.RefValue
import Idealize.ShloMosaic.Adequacy
import Idealize.ShloMosaic.Init

noncomputable section

namespace Cert.Proof

open Idealize.ShloMosaic Idealize.SL.Sem Cert.Kernel

/-- The word-level program runs and leaves its arguments as launched: the generated frame. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the dense matrix of the neighbour mean of the normalized features, of the normalized
    features, of the features, the two transposed weights and the bias: the kernel program by its two regions' values
    and the host operations between them, the reference by its stages read against the same specification. -/
theorem algebraic : Cert.algebraic_KernelIdeal_ReferenceIdeal := by
  intro m ρ m' ρ' _ hagree
  refine ⟨fun c => Cert.KernelIdeal.ResultValue.result m c, ?_, ?_⟩
  · exact (θ_run (Cert.KernelIdeal.defs (F := Ideal)) _ _).mono
      (fun r h c => ⟨(h c).1.trans (Cert.KernelIdeal.ResultValue.result_value m ρ c), (h c).2⟩)
      (Cert.KernelIdeal.ValueRun.run_value (F := Ideal) m ρ)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v56_eq, Cert.ReferenceIdeal.RefValue.ref_value,
      (hagree c).1, (hagree c).2.1, (hagree c).2.2.1, (hagree c).2.2.2.1, (hagree c).2.2.2.2.1, (hagree c).2.2.2.2.2.1,
      (hagree c).2.2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
